-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x200 : Shape := ⟨2, ![500000, 200]⟩
abbrev S64 : Shape := ⟨1, ![64]⟩
abbrev S_ : Shape := ⟨0, ![]⟩

class Facts : Prop where
  bcast_S_S500000x200 : S_.BroadcastsInDim S500000x200 (![] : Fin 0 → Fin S500000x200.rank)
  reducesTo_S500000x200_S_d0_1 : S500000x200.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S500000x200 .f32) (main_arg1 : FVec F S64 .f32) : IVec S_ 1 :=
  let main_v0 : FVec F S500000x200 .f32 := Host.absf main_arg0
  let main_cst : FVec F S_ .f32 := constant S_ .f32 0x7F800000#32
  let main_v1 : FVec F S500000x200 .f32 := broadcastInDim S500000x200 ![] bcast_S_S500000x200 main_cst
  let main_v2 : IVec S500000x200 1 := cmpf .olt main_v0 main_v1
  let main_c : IVec S_ 1 := constantI S_ 1 1#1
  let main_v3 : IVec S_ 1 := (fun x v => Host.reduce IntOp.andi x v reducesTo_S500000x200_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Kernel.lean ====
abbrev S500000x200 : Shape := ⟨2, ![500000, 200]⟩
abbrev S64 : Shape := ⟨1, ![64]⟩
abbrev S200 : Shape := ⟨1, ![200]⟩
abbrev S64x1 : Shape := ⟨2, ![64, 1]⟩
abbrev S1x200 : Shape := ⟨2, ![1, 200]⟩
abbrev S_ : Shape := ⟨0, ![]⟩
abbrev S64x200 : Shape := ⟨2, ![64, 200]⟩
abbrev S200x64 : Shape := ⟨2, ![200, 64]⟩
abbrev S1x64 : Shape := ⟨2, ![1, 64]⟩
abbrev S500000x64 : Shape := ⟨2, ![500000, 64]⟩
abbrev S10000x200 : Shape := ⟨2, ![10000, 200]⟩
abbrev S10000x64 : Shape := ⟨2, ![10000, 64]⟩
abbrev S2000x200 : Shape := ⟨2, ![2000, 200]⟩
abbrev S2000x64 : Shape := ⟨2, ![2000, 64]⟩

abbrev nBuf : Space → Nat
  | .hbm => 31
  | .vmem => 5
  | .smem => 0
  | _ => 0

abbrev bufTy : (tb : Table) → Fin (tcTables nBuf tb) → BufTy
  | .hbm, ⟨0, _⟩ => ⟨S500000x200, .f32⟩
  | .hbm, ⟨1, _⟩ => ⟨S64, .f32⟩
  | .hbm, ⟨2, _⟩ => ⟨S200, .f32⟩
  | .hbm, ⟨3, _⟩ => ⟨S64x1, .f32⟩
  | .hbm, ⟨4, _⟩ => ⟨S1x200, .f32⟩
  | .hbm, ⟨5, _⟩ => ⟨S_, .f32⟩
  | .hbm, ⟨6, _⟩ => ⟨S1x200, .f32⟩
  | .hbm, ⟨7, _⟩ => ⟨S1x200, .f32⟩
  | .hbm, ⟨8, _⟩ => ⟨S64x200, .f32⟩
  | .hbm, ⟨9, _⟩ => ⟨S64x200, .f32⟩
  | .hbm, ⟨10, _⟩ => ⟨S64x200, .f32⟩
  | .hbm, ⟨11, _⟩ => ⟨S_, .f32⟩
  | .hbm, ⟨12, _⟩ => ⟨S64x200, .f32⟩
  | .hbm, ⟨13, _⟩ => ⟨S64x200, .f32⟩
  | .hbm, ⟨14, _⟩ => ⟨S64x200, .f32⟩
  | .hbm, ⟨15, _⟩ => ⟨S_, .f32⟩
  | .hbm, ⟨16, _⟩ => ⟨S64x200, .f32⟩
  | .hbm, ⟨17, _⟩ => ⟨S64x200, .f32⟩
  | .hbm, ⟨18, _⟩ => ⟨S_, .f32⟩
  | .hbm, ⟨19, _⟩ => ⟨S64x200, .f32⟩
  | .hbm, ⟨20, _⟩ => ⟨S64x200, .f32⟩
  | .hbm, ⟨21, _⟩ => ⟨S200x64, .f32⟩
  | .hbm, ⟨22, _⟩ => ⟨S_, .f32⟩
  | .hbm, ⟨23, _⟩ => ⟨S200x64, .f32⟩
  | .hbm, ⟨24, _⟩ => ⟨S200x64, .f32⟩
  | .hbm, ⟨25, _⟩ => ⟨S_, .f32⟩
  | .hbm, ⟨26, _⟩ => ⟨S64, .f32⟩
  | .hbm, ⟨27, _⟩ => ⟨S1x64, .f32⟩
  | .hbm, ⟨28, _⟩ => ⟨S200x64, .f32⟩
  | .hbm, ⟨29, _⟩ => ⟨S200x64, .f32⟩
  | .hbm, ⟨30, _⟩ => ⟨S500000x64, .f32⟩
  | .local _ .vmem, ⟨0, _⟩ => ⟨S10000x200, .f32⟩
  | .local _ .vmem, ⟨1, _⟩ => ⟨S10000x200, .f32⟩
  | .local _ .vmem, ⟨2, _⟩ => ⟨S200x64, .f32⟩
  | .local _ .vmem, ⟨3, _⟩ => ⟨S10000x64, .f32⟩
  | .local _ .vmem, ⟨4, _⟩ => ⟨S10000x64, .f32⟩
  | _, _ => ⟨S500000x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

@[reducible] def k0_t1_loop : Scf.Loop 32 :=
  let c0_i32 : BitVec 32 := 0#32
  let c5_i32 : BitVec 32 := 5#32
  let v3 : BitVec 32 := Scalar.addi c0_i32 c5_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c2000_i32 : BitVec 32 := 2000#32
  let v4 : BitVec 32 := Scalar.muli arg4 c2000_i32
  v4
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c2000_i32 : BitVec 32 := 2000#32
  let v4 : BitVec 32 := Scalar.muli arg4 c2000_i32
  let v5 : BitVec 32 := v4
  let v6 : Index := Scalar.indexCast v5
  let c0_2 : Index := 0#32
  ![v6.toNat, 0]
def k0_off2 (k0_t1 : Fin k0_t1_loop.trips) : Fin 2 → Nat :=
  let c0_i32 : BitVec 32 := 0#32
  let c1_i32 : BitVec 32 := 1#32
  let arg4 : BitVec 32 := Scf.iv c0_i32 c1_i32 k0_t1
  let c2000_i32 : BitVec 32 := 2000#32
  let v4 : BitVec 32 := Scalar.muli arg4 c2000_i32
  let v5 : BitVec 32 := v4
  let v10 : Index := Scalar.indexCast v5
  let c0_3 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S64_S64x1_0 : S64.BroadcastsInDim S64x1 (![0] : Fin 1 → Fin S64x1.rank)
  bcast_S200_S1x200_1 : S200.BroadcastsInDim S1x200 (![1] : Fin 1 → Fin S1x200.rank)
  bcast_S_S1x200 : S_.BroadcastsInDim S1x200 (![] : Fin 0 → Fin S1x200.rank)
  bcast_S64x1_S64x200_0_1 : S64x1.BroadcastsInDim S64x200 (![0, 1] : Fin 2 → Fin S64x200.rank)
  bcast_S1x200_S64x200_0_1 : S1x200.BroadcastsInDim S64x200 (![0, 1] : Fin 2 → Fin S64x200.rank)
  bcast_S_S64x200 : S_.BroadcastsInDim S64x200 (![] : Fin 0 → Fin S64x200.rank)
  transposes_S64x200_S200x64_1_0 : S64x200.Transposes [1, 0] S200x64
  bcast_S_S200x64 : S_.BroadcastsInDim S200x64 (![] : Fin 0 → Fin S200x64.rank)
  reducesTo_S200x64_S64_d0 : S200x64.ReducesTo [0] S64
  h_S_ : 0 < S_.numel
  bcast_S64_S1x64_1 : S64.BroadcastsInDim S1x64 (![1] : Fin 1 → Fin S1x64.rank)
  bcast_S1x64_S200x64_0_1 : S1x64.BroadcastsInDim S200x64 (![0, 1] : Fin 2 → Fin S200x64.rank)
  inb_S200x64_S200x64_0_0 : ∀ a, (![0, 0] : Fin 2 → Nat) a + S200x64.size a ≤ S200x64.size a
  h_S200x64 : 0 < S200x64.numel
  shapeCasts_S200x64_S200x64 : S200x64.ShapeCasts S200x64
  bitsLt_bf16_f32 : FTy.bits .bf16 < FTy.bits .f32
  h_S2000x200 : 0 < S2000x200.numel
  h_S2000x64 : 0 < S2000x64.numel
  dot_S2000x200_S200x64_S2000x64_1_0_0_1_n_n_wf : DotDims.WF S2000x200 S200x64 S2000x64 [1] [0] [0] [1] [] []
  hrank0 : 0 < grid0.rank
  k0_t1_ok : k0_t1_loop.OK
  k0_mult1_dvd : ∀ k0_t1 : Fin k0_t1_loop.trips, 2000 ∣ (k0_mult1 k0_t1).toNat
  k0_off1_inb : ∀ k0_t1 : Fin k0_t1_loop.trips, ∀ a, (k0_off1 k0_t1) a + S2000x200.size a ≤ S10000x200.size a
  k0_off2_inb : ∀ k0_t1 : Fin k0_t1_loop.trips, ∀ a, (k0_off2 k0_t1) a + S2000x64.size a ≤ S10000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x200.size a ≤ S500000x200.size a
  hwx0_0 : ∀ i : grid0.Coords, EltTy.bits .f32 = 32 ∨ (Rect.block (s := S500000x200) S10000x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x64.size a ≤ S200x64.size a
  hwx0_1 : ∀ i : grid0.Coords, EltTy.bits .f32 = 32 ∨ (Rect.block (s := S200x64) S200x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S500000x64.size a
  hwx0_2 : ∀ i : grid0.Coords, EltTy.bits .f32 = 32 ∨ (Rect.block (s := S500000x64) S10000x64.size (cc0_transform_2 i) (hinb0_2 i)).WholeWords (EltTy.packing .f32)

variable [Facts₀]

def dot_S2000x200_S200x64_S2000x64_1_0_0_1_n_n : DotDims S2000x200 S200x64 S2000x64 where
  lhsContracting := [1]
  rhsContracting := [0]
  lhsNonContracting := [0]
  rhsNonContracting := [1]
  lhsBatch := []
  rhsBatch := []
  wf := dot_S2000x200_S200x64_S2000x64_1_0_0_1_n_n_wf

abbrev win0_0 : Pipeline.Window sig grid0 :=
  Pipeline.Window.ofSpec (Memref.whole main_arg0) S10000x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S200x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000x200 : Shape := ⟨2, ![500000, 200]⟩
abbrev S64 : Shape := ⟨1, ![64]⟩
abbrev S200 : Shape := ⟨1, ![200]⟩
abbrev S64x1 : Shape := ⟨2, ![64, 1]⟩
abbrev S1x200 : Shape := ⟨2, ![1, 200]⟩
abbrev S_ : Shape := ⟨0, ![]⟩
abbrev S64x200 : Shape := ⟨2, ![64, 200]⟩
abbrev S200x64 : Shape := ⟨2, ![200, 64]⟩
abbrev S1x64 : Shape := ⟨2, ![1, 64]⟩
abbrev S500000x64 : Shape := ⟨2, ![500000, 64]⟩

abbrev nBuf : Space → Nat
  | .hbm => 31
  | .vmem => 0
  | .smem => 0
  | _ => 0

abbrev bufTy : (tb : Table) → Fin (tcTables nBuf tb) → BufTy
  | .hbm, ⟨0, _⟩ => ⟨S500000x200, .f32⟩
  | .hbm, ⟨1, _⟩ => ⟨S64, .f32⟩
  | .hbm, ⟨2, _⟩ => ⟨S200, .f32⟩
  | .hbm, ⟨3, _⟩ => ⟨S64x1, .f32⟩
  | .hbm, ⟨4, _⟩ => ⟨S1x200, .f32⟩
  | .hbm, ⟨5, _⟩ => ⟨S_, .f32⟩
  | .hbm, ⟨6, _⟩ => ⟨S1x200, .f32⟩
  | .hbm, ⟨7, _⟩ => ⟨S1x200, .f32⟩
  | .hbm, ⟨8, _⟩ => ⟨S64x200, .f32⟩
  | .hbm, ⟨9, _⟩ => ⟨S64x200, .f32⟩
  | .hbm, ⟨10, _⟩ => ⟨S64x200, .f32⟩
  | .hbm, ⟨11, _⟩ => ⟨S_, .f32⟩
  | .hbm, ⟨12, _⟩ => ⟨S64x200, .f32⟩
  | .hbm, ⟨13, _⟩ => ⟨S64x200, .f32⟩
  | .hbm, ⟨14, _⟩ => ⟨S64x200, .f32⟩
  | .hbm, ⟨15, _⟩ => ⟨S_, .f32⟩
  | .hbm, ⟨16, _⟩ => ⟨S64x200, .f32⟩
  | .hbm, ⟨17, _⟩ => ⟨S64x200, .f32⟩
  | .hbm, ⟨18, _⟩ => ⟨S_, .f32⟩
  | .hbm, ⟨19, _⟩ => ⟨S64x200, .f32⟩
  | .hbm, ⟨20, _⟩ => ⟨S64x200, .f32⟩
  | .hbm, ⟨21, _⟩ => ⟨S200x64, .f32⟩
  | .hbm, ⟨22, _⟩ => ⟨S_, .f32⟩
  | .hbm, ⟨23, _⟩ => ⟨S200x64, .f32⟩
  | .hbm, ⟨24, _⟩ => ⟨S200x64, .f32⟩
  | .hbm, ⟨25, _⟩ => ⟨S_, .f32⟩
  | .hbm, ⟨26, _⟩ => ⟨S64, .f32⟩
  | .hbm, ⟨27, _⟩ => ⟨S1x64, .f32⟩
  | .hbm, ⟨28, _⟩ => ⟨S200x64, .f32⟩
  | .hbm, ⟨29, _⟩ => ⟨S200x64, .f32⟩
  | .hbm, ⟨30, _⟩ => ⟨S500000x64, .f32⟩
  | _, _ => ⟨S500000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S64_S64x1_0 : S64.BroadcastsInDim S64x1 (![0] : Fin 1 → Fin S64x1.rank)
  bcast_S200_S1x200_1 : S200.BroadcastsInDim S1x200 (![1] : Fin 1 → Fin S1x200.rank)
  bcast_S_S1x200 : S_.BroadcastsInDim S1x200 (![] : Fin 0 → Fin S1x200.rank)
  bcast_S64x1_S64x200_0_1 : S64x1.BroadcastsInDim S64x200 (![0, 1] : Fin 2 → Fin S64x200.rank)
  bcast_S1x200_S64x200_0_1 : S1x200.BroadcastsInDim S64x200 (![0, 1] : Fin 2 → Fin S64x200.rank)
  bcast_S_S64x200 : S_.BroadcastsInDim S64x200 (![] : Fin 0 → Fin S64x200.rank)
  transposes_S64x200_S200x64_1_0 : S64x200.Transposes [1, 0] S200x64
  bcast_S_S200x64 : S_.BroadcastsInDim S200x64 (![] : Fin 0 → Fin S200x64.rank)
  reducesTo_S200x64_S64_d0 : S200x64.ReducesTo [0] S64
  h_S_ : 0 < S_.numel
  bcast_S64_S1x64_1 : S64.BroadcastsInDim S1x64 (![1] : Fin 1 → Fin S1x64.rank)
  bcast_S1x64_S200x64_0_1 : S1x64.BroadcastsInDim S200x64 (![0, 1] : Fin 2 → Fin S200x64.rank)
  dot_S500000x200_S200x64_S500000x64_1_0_0_1_n_n_wf : DotDims.WF S500000x200 S200x64 S500000x64 [1] [0] [0] [1] [] []

variable [Facts₀]

def dot_S500000x200_S200x64_S500000x64_1_0_0_1_n_n : DotDims S500000x200 S200x64 S500000x64 where
  lhsContracting := [1]
  rhsContracting := [0]
  lhsNonContracting := [0]
  rhsNonContracting := [1]
  lhsBatch := []
  rhsBatch := []
  wf := dot_S500000x200_S200x64_S500000x64_1_0_0_1_n_n_wf

class Facts : Prop extends Facts₀ where

variable [Facts]
-- ==== Proof.LibPlainDot.lean ====
/-
  A plain matrix product read at an index, generic in the sizes. For dimension numbers that contract the left
  operand's columns with the right operand's rows, with no batch axis (rows × contraction times contraction ×
  columns), the sum over the contraction shape's indices of the operands' products at the dot's operand indices is the
  sum over k < K of l[p, k] · r[k, q]. A kernel's matrix unit into a zero accumulator and the host's dot both read
  through it at the ideal values. Imports only the library.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat} (D : DotDims ⟨2, ![M, K]⟩ ⟨2, ![K, N]⟩ ⟨2, ![M, N]⟩)

/-- Two spellings of one axis position read the same coordinate. -/
theorem coord_val_congr {s : Shape} (j : s.Idx) (p q : Nat) (hp : p < s.rank) (hq : q < s.rank) (h : p = q) :
    (j ⟨p, hp⟩).val = (j ⟨q, hq⟩).val := by subst h; rfl

/-- The left operand's row is the result's row: axis 0 is the left operand's one free axis, first among the result's. -/
theorem lhs_row (hlb : D.lhsBatch = []) (hln : D.lhsNonContracting = [0]) (p : Fin M) (q : Fin N) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact coord_val_congr (ix2 p q) _ 0 _ (show 0 < 2 by omega) (by simp [hlb, hln])

/-- The right operand's column is the result's column: axis 1 is the right operand's one free axis, second among the result's. -/
theorem rhs_col (hlb : D.lhsBatch = []) (hrb : D.rhsBatch = []) (hln : D.lhsNonContracting = [0]) (hrn : D.rhsNonContracting = [1])
    (p : Fin M) (q : Fin N) (k : D.contr.Idx) : (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact coord_val_congr (ix2 p q) _ 1 _ (show 1 < 2 by omega) (by simp [hlb, hln, hrn])

/-- The product at result index (p, q): the contraction re-indexed by its one coordinate. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 p k := by
    funext a
    match a with
    | ⟨0, _⟩ => exact Fin.ext (lhs_row D hlb hln p q _)
    | ⟨1, _⟩ => exact Fin.ext ((D.lhsIdx_val_of_single hlc (ix2 p q) _).trans hk)
  have e2 : D.rhsIdx (ix2 p q) ((contrEquiv1 D K hr hs).symm k) = ix2 k q := by
    funext a
    match a with
    | ⟨0, _⟩ => exact Fin.ext ((D.rhsIdx_val_of_single hrc (ix2 p q) _).trans hk)
    | ⟨1, _⟩ => exact Fin.ext (rhs_col D hlb hrb hln hrn p q _)
  rw [e1, e2]

/-- The matrix product as a function of the result index: entry (p, q) is ∑_k l[p, k] · r[k, q] on the extended reals. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

theorem matProd_ix2 (l : (⟨2, ![M, K]⟩ : Shape).Idx → EReal) (r : (⟨2, ![K, N]⟩ : Shape).Idx → EReal) (p : Fin M) (q : Fin N) :
    matProd l r (ix2 p q) = ∑ k : Fin K, l (ix2 p k) * r (ix2 k q) := rfl

/-- The matrix unit's product into the zero accumulator, at the ideal values, is the matrix product. -/
theorem matmul_zero_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = matProd (M := M) (K := K) (N := N) l r := by
  funext y
  obtain ⟨p, q, rfl⟩ : ∃ (p : Fin M) (q : Fin N), y = ix2 p q := ⟨y 0, y 1, eq_ix2 y⟩
  rw [Ideal.matmul_constant_zero_apply, matProd_ix2]
  exact sum_plain D hlc hrc hln hrn hlb hrb l r p q

/-- The host's dot, at the ideal values, is the matrix product, whatever its precision and schedule keys. -/
theorem dotGeneral_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision) (sched : HostSchedule)
    (l : FVec Ideal ⟨2, ![M, K]⟩ φ₁) (r : FVec Ideal ⟨2, ![K, N]⟩ φ₂) :
    FloatOps.dotGeneral D prec sched l r = matProd (M := M) (K := K) (N := N) l r := by
  funext y
  obtain ⟨p, q, rfl⟩ : ∃ (p : Fin M) (q : Fin N), y = ix2 p q := ⟨y 0, y 1, eq_ix2 y⟩
  rw [Ideal.dotGeneral_apply, matProd_ix2]
  exact sum_plain D hlc hrc hln hrn hlb hrb l r p q

end Cert.LibPlainDot

end
-- ==== Proof.BlockValue.lean ====
/-
  What one grid point leaves in the output's staging block. The body loads the whole [200, 64] weight block once, then
  makes five trips; trip k loads rows 2000k … 2000k + 1999 of the [10000, 200] data block, multiplies them by the
  weights on the matrix unit into a zero accumulator, and stores the [2000, 64] result at the same rows of the output
  block. At the ideal values the two narrowings to bf16 are the identity and the accumulator adds nothing, so the
  stored chunk is rows 2000k … of the product (data block) · (weight block); the five chunks tile the block, so the
  block the body leaves is that product, entry (p, q) = ∑_k data[p, k] · weight[k, q].
-/
import proofs.«421638_j21457656611281_3_alg».proof.Proof.Gen.KernelIdeal.Value
import proofs.«421638_j21457656611281_3_alg».proof.Proof.LibPlainDot
import Idealize.ShloMosaic.Lib.Pipeline.Value
import Idealize.ShloMosaic.Lib.ValueIdx

noncomputable section

open scoped BigOperators

namespace Cert.KernelIdeal.BlockValue

open Cert.KernelIdeal Cert.KernelIdeal.Gen Idealize.ShloMosaic Idealize.ShloMosaic.TcCoe Idealize.ShloMosaic.Tactic Idealize.SL.Sem
open Idealize.ShloMosaic.ValueIdx Cert.LibPlainDot

/-- One chunk's payload is the product of the loaded rows with the weight block. -/
theorem chunk_payload (w : Vec Ideal S200x64 .f32) (xk : Vec Ideal S2000x200 .f32) :
    k0_pay1 (F := Ideal) w xk = matProd (M := 2000) (K := 200) (N := 64) xk w := by
  unfold k0_pay1
  dsimp only
  rw [shapeCast_self]
  exact matmul_zero_eq_matProd dot_S2000x200_S200x64_S2000x64_1_0_0_1_n_n rfl rfl rfl rfl rfl rfl none _ _

/-- Trip k makes one store: at the trip's rows of the output block, the payload of the data rows loaded there. -/
theorem trip_pieces (𝒱 : Variants) (c : Dev nD) (bd : Option 𝒱.V) (i : grid0.Coords) (arg1 : Memref sig .tc .vmem S10000x200 .f32) (harg1 : arg1.IsWhole) (arg2 : Memref sig .tc .vmem S200x64 .f32) (harg2 : arg2.IsWhole) (arg3 : Memref sig .tc .vmem S10000x64 .f32) (harg3 : arg3.IsWhole)
    (v0 : Vec Ideal S200x64 .f32) (X : BufTy.Contents (Elt Ideal) arg1.view.ty) (k : Fin k0_t1_loop.trips) :
    tripL_k0_t1 (F := Ideal) 𝒱 c bd i arg1 harg1 arg2 harg2 arg3 harg3 v0 X k
      = [⟨Rect.unit (s := S10000x64) (k0_off2 k) S2000x64.size (k0_off2_inb k),
          k0_pay1 v0 (View.readAt (Elt Ideal) arg1.view (Rect.unit (s := S10000x200) (k0_off1 k) S2000x200.size (k0_off1_inb k)).toLoadRect X)⟩] := by
  unfold tripL_k0_t1 trip_k0_t1
  rfl

/-- That store's payload at a chunk index is the block product at the index's place in the block: the chunk's row a is the
    block's row 2000k + a, on the data side and on the output side alike. -/
theorem trip_piece_ok (arg1 : Memref sig .tc .vmem S10000x200 .f32) (harg1 : arg1.IsWhole) (x0 : Vec Ideal S10000x200 .f32)
    (w : Vec Ideal S200x64 .f32) (k : Fin k0_t1_loop.trips) (x : S2000x64.Idx) :
    k0_pay1 (F := Ideal) w (View.readAt (Elt Ideal) arg1.view (Rect.unit (s := S10000x200) (k0_off1 k) S2000x200.size (k0_off1_inb k)).toLoadRect (harg1.unread x0)) x
      = matProd (M := 10000) (K := 200) (N := 64) x0 w ((Rect.unit (s := S10000x64) (k0_off2 k) S2000x64.size (k0_off2_inb k)).emb x) := by
  rw [chunk_payload, View.readAt_eq_ld, harg1.read_unread]
  obtain ⟨a, b, rfl⟩ : ∃ (a : Fin 2000) (b : Fin 64), x = ix2 a b := ⟨x 0, x 1, eq_ix2 x⟩
  rw [matProd_ix2]
  unfold matProd
  refine Finset.sum_congr rfl fun kk _ => ?_
  congr 1
  · show x0 ((Rect.unit (s := S10000x200) (k0_off1 k) S2000x200.size (k0_off1_inb k)).idx (ix2 a kk)) = _
    refine congrArg x0 (funext fun d => Fin.ext ?_)
    match d with
    | ⟨0, _⟩ =>
      show k0_off1 k 0 + 1 * a.val = k0_off2 k 0 + 1 * a.val
      rw [k0_off1_eq, k0_off2_eq]
    | ⟨1, _⟩ =>
      show k0_off1 k 1 + 1 * kk.val = kk.val
      rw [k0_off1_eq]; simp
  · refine congrArg w (funext fun d => Fin.ext ?_)
    match d with
    | ⟨0, _⟩ => rfl
    | ⟨1, _⟩ =>
      show b.val = k0_off2 k 1 + 1 * b.val
      rw [k0_off2_eq]; simp

/-- So every store of the first n trips is a block of the block product. -/
theorem pieces_ok (𝒱 : Variants) (c : Dev nD) (bd : Option 𝒱.V) (i : grid0.Coords) (arg1 : Memref sig .tc .vmem S10000x200 .f32) (harg1 : arg1.IsWhole) (arg2 : Memref sig .tc .vmem S200x64 .f32) (harg2 : arg2.IsWhole) (arg3 : Memref sig .tc .vmem S10000x64 .f32) (harg3 : arg3.IsWhole)
    (x0 : Vec Ideal S10000x200 .f32) (w : Vec Ideal S200x64 .f32) (n : ℕ) :
    ∀ p ∈ pb_k0_t1 (F := Ideal) 𝒱 c bd i arg1 harg1 arg2 harg2 arg3 harg3 w (harg1.unread x0) n,
      ∀ x : p.1.shape.Idx, p.2 x = matProd (M := 10000) (K := 200) (N := 64) x0 w (p.1.emb x) := by
  induction n with
  | zero => intro p hp; simp [pb_k0_t1] at hp
  | succ n ih =>
    intro p hp x
    rw [pb_k0_t1.eq_2] at hp
    unfold pb_k0_t1Step at hp
    split at hp
    · rename_i h
      rcases List.mem_append.mp hp with h1 | h2
      · rw [trip_pieces, List.mem_singleton] at h1
        subst h1
        exact trip_piece_ok arg1 harg1 x0 w ⟨n, h⟩ x
      · exact ih p h2 x
    · exact ih p hp x

theorem hz : (![0, 0] : Fin 2 → Nat) = fun _ => 0 := funext fun a => by fin_cases a <;> rfl

/-- The run's stores are those of all the trips, over the weight block as loaded; -/
theorem run_pieces (c : Dev nD) (i : grid0.Coords) (arg1 : Memref sig .tc .vmem S10000x200 .f32) (harg1 : arg1.IsWhole) (arg2 : Memref sig .tc .vmem S200x64 .f32) (harg2 : arg2.IsWhole) (arg3 : Memref sig .tc .vmem S10000x64 .f32) (harg3 : arg3.IsWhole) (x0 : Vec Ideal S10000x200 .f32) (x1 : Vec Ideal S200x64 .f32) :
    (kernelRun0_A (F := Ideal) c i arg1 harg1 arg2 harg2 arg3 harg3 x0 x1).1
      = pb_k0_t1 Variants.none c none i arg1 harg1 arg2 harg2 arg3 harg3
          (View.readAt (Elt Ideal) arg2.view (Rect.unit (s := S200x64) ![0, 0] S200x64.size inb_S200x64_S200x64_0_0).toLoadRect (harg2.unread x1))
          (harg1.unread x0) k0_t1_loop.trips := by
  unfold kernelRun0_A
  rfl

/-- and the load of the whole weight block reads the block. -/
theorem weight_load (arg2 : Memref sig .tc .vmem S200x64 .f32) (harg2 : arg2.IsWhole) (x1 : Vec Ideal S200x64 .f32) :
    View.readAt (Elt Ideal) arg2.view (Rect.unit (s := S200x64) ![0, 0] S200x64.size inb_S200x64_S200x64_0_0).toLoadRect (harg2.unread x1) = x1 := by
  rw [View.readAt_eq_ld, harg2.read_unread, View.ld_unit_zero (S := S200x64) hz]

/-- THE BLOCK: what the body leaves in the output's staging block is the product of its two input blocks. -/
theorem block_eq (c : Dev nD) (i : grid0.Coords) (arg1 : Memref sig .tc .vmem S10000x200 .f32) (harg1 : arg1.IsWhole) (arg2 : Memref sig .tc .vmem S200x64 .f32) (harg2 : arg2.IsWhole) (arg3 : Memref sig .tc .vmem S10000x64 .f32) (harg3 : arg3.IsWhole) (x0 : Vec Ideal S10000x200 .f32) (x1 : Vec Ideal S200x64 .f32) :
    out0_A_2 (F := Ideal) c i arg1 harg1 arg2 harg2 arg3 harg3 x0 x1 = matProd (M := 10000) (K := 200) (N := 64) x0 x1 := by
  unfold out0_A_2
  rw [View.read_writes_eq_canon _ _ _ (cover0_A_2 c i arg1 harg1 arg2 harg2 arg3 harg3 x0 x1)]
  funext y
  refine View.canon_apply_of_pieces (Val := Elt Ideal) (matProd (M := 10000) (K := 200) (N := 64) x0 x1) _ ?_ y (cover0_A_2 c i arg1 harg1 arg2 harg2 arg3 harg3 x0 x1 y)
  rw [run_pieces, weight_load]
  exact pieces_ok Variants.none c none i arg1 harg1 arg2 harg2 arg3 harg3 x0 x1 k0_t1_loop.trips

end Cert.KernelIdeal.BlockValue

end
-- ==== Proof.Weights.lean ====
/-
  The normalised filter matrix both programs build on the host before the product, as ONE function of the
  64 parameters a: with b the 200 band constants,
    phase[o, c] = κ / (a[o] · (b[c] · ε)),   w[o, c] = 1/2 − 1/2 · cos phase[o, c],
    weights[c, o] = max(w[o, c], 0) / ∑_c' w[o, c']
  (the denominator sums the un-clipped entries). Kernel and reference apply the same host operations in the same
  order to the same constants, so the certificate only ever needs that each side's matrix IS this function of
  its parameter vector: nothing below is opened by any later module.
-/
import Idealize.ShloMosaic.PureOps

noncomputable section

namespace Cert.Weights

open Idealize.ShloMosaic

abbrev S64 : Shape := ⟨1, ![64]⟩
abbrev S200 : Shape := ⟨1, ![200]⟩
abbrev S64x1 : Shape := ⟨2, ![64, 1]⟩
abbrev S1x200 : Shape := ⟨2, ![1, 200]⟩
abbrev S_ : Shape := ⟨0, ![]⟩
abbrev S64x200 : Shape := ⟨2, ![64, 200]⟩
abbrev S200x64 : Shape := ⟨2, ![200, 64]⟩
abbrev S1x64 : Shape := ⟨2, ![1, 64]⟩

variable {F : FTy → Type} [FloatOps F]

/-- The [200, 64] matrix of normalised, clipped cosine weights, from the table `lit` of the 200 band constants'
    words and the parameter vector `a`; one line per host operation, in the programs' order. -/
def weights (lit : Fin 200 → BitVec 32) (a : FVec F S64 .f32) : FVec F S200x64 .f32 :=
  let bands : FVec F S200 .f32 := fun i => FloatOps.ofBits .f32 (lit (S200.rowMajor i))
  let aCol : FVec F S64x1 .f32 := broadcastInDim S64x1 (![0] : Fin 1 → Fin S64x1.rank) (by decide) a
  let bRow : FVec F S1x200 .f32 := broadcastInDim S1x200 (![1] : Fin 1 → Fin S1x200.rank) (by decide) bands
  let eps : FVec F S_ .f32 := constant S_ .f32 0x358637BD#32
  let epsRow : FVec F S1x200 .f32 := broadcastInDim S1x200 (![] : Fin 0 → Fin S1x200.rank) (by decide) eps
  let bScaled : FVec F S1x200 .f32 := mulf bRow epsRow
  let aFull : FVec F S64x200 .f32 := broadcastInDim S64x200 (![0, 1] : Fin 2 → Fin S64x200.rank) (by decide) aCol
  let bFull : FVec F S64x200 .f32 := broadcastInDim S64x200 (![0, 1] : Fin 2 → Fin S64x200.rank) (by decide) bScaled
  let denom : FVec F S64x200 .f32 := mulf aFull bFull
  let kappa : FVec F S_ .f32 := constant S_ .f32 0xBD80ADFD#32
  let kappaFull : FVec F S64x200 .f32 := broadcastInDim S64x200 (![] : Fin 0 → Fin S64x200.rank) (by decide) kappa
  let phase : FVec F S64x200 .f32 := Host.divf kappaFull denom
  let cosPhase : FVec F S64x200 .f32 := Host.cos phase
  let half : FVec F S_ .f32 := constant S_ .f32 0x3F000000#32
  let halfFull : FVec F S64x200 .f32 := broadcastInDim S64x200 (![] : Fin 0 → Fin S64x200.rank) (by decide) half
  let halfCos : FVec F S64x200 .f32 := mulf halfFull cosPhase
  let half' : FVec F S_ .f32 := constant S_ .f32 0x3F000000#32
  let halfFull' : FVec F S64x200 .f32 := broadcastInDim S64x200 (![] : Fin 0 → Fin S64x200.rank) (by decide) half'
  let w : FVec F S64x200 .f32 := subf halfFull' halfCos
  let wT : FVec F S200x64 .f32 := transpose S200x64 [1, 0] w (by decide)
  let zero : FVec F S_ .f32 := constant S_ .f32 0x00000000#32
  let zeroFull : FVec F S200x64 .f32 := broadcastInDim S200x64 (![] : Fin 0 → Fin S200x64.rank) (by decide) zero
  let clipped : FVec F S200x64 .f32 := maximumf wT zeroFull
  let zero' : FVec F S_ .f32 := constant S_ .f32 0x00000000#32
  let colSum : FVec F S64 .f32 := Host.reduceAdd wT zero' (by decide : S200x64.ReducesTo [0] S64) (by decide : 0 < S_.numel)
  let colSumRow : FVec F S1x64 .f32 := broadcastInDim S1x64 (![1] : Fin 1 → Fin S1x64.rank) (by decide) colSum
  let colSumFull : FVec F S200x64 .f32 := broadcastInDim S200x64 (![0, 1] : Fin 2 → Fin S200x64.rank) (by decide) colSumRow
  Host.divf clipped colSumFull

end Cert.Weights

end
-- ==== Proof.ArrayValue.lean ====
/-
  From blocks to the whole result array. Grid point t stages rows 10000t … 10000t + 9999 of the data matrix and the whole
  weight matrix (the same block at every point), and writes its [10000, 64] block back to the same rows of the result.
  By the block lemma the block written is (data block) · (weights), which is rows 10000t … of (data) · (weights); the
  fifty blocks cover the 500000 rows, so after the run the result array is the product of the data matrix with the weight
  matrix the host prefix computed — and that prefix is the weight function of the parameter vector.
-/
import proofs.«421638_j21457656611281_3_alg».proof.Proof.BlockValue
import proofs.«421638_j21457656611281_3_alg».proof.Proof.Weights
import Idealize.ShloMosaic.Lib.StableHlo.Run

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.LibPlainDot
open Idealize.ShloMosaic.Pipeline (Dat)

set_option maxHeartbeats 2000000 in
/-- The weight matrix the region finds is the weight function of the parameter vector as launched: the 28 host operations
    before the launch, read back, kept as one function (at any float instance). -/
theorem V_weights {F : FTy → Type} [FloatOps F] (m : (ℓ : Loc nD τ sig) → Buf (Elt F) ℓ) (c : Dev nD) :
    (V m c main_v19 : S200x64.Idx → Elt F .f32) = Cert.Weights.weights (F := F) lit0 (m ((c : Thread nD τ).loc main_arg1)) := by
  dsimp only [Gen.V]
  simp only [Gen.hostOps0, Gen.hostOps0_1, Gen.hostOps0_2, List.flatten_cons, List.flatten_nil, List.append_nil, List.cons_append,
    List.nil_append]
  after_results_simp
  rfl

variable (m : (ℓ : Loc nD τ sig) → Buf (Elt Ideal) ℓ) (ρ : Dev nD → PrngReg)

/-- The two arrays the region reads and the two blocks a point stages, at their literal types; the product of the arrays
    and the product of a point's blocks. -/
abbrev xarr (c : Dev nD) : Vec Ideal S500000x200 .f32 := V m c main_arg0
abbrev warr (c : Dev nD) : Vec Ideal S200x64 .f32 := V m c main_v19
abbrev xblk (c : Dev nD) (t : Fin cfg0.N) : Vec Ideal S10000x200 .f32 := iblk m c 0 t
abbrev wblk (c : Dev nD) (t : Fin cfg0.N) : Vec Ideal S200x64 .f32 := iblk m c 1 t
abbrev prodArr (c : Dev nD) : Vec Ideal S500000x64 .f32 := matProd (M := 500000) (K := 200) (N := 64) (xarr m c) (warr m c)
abbrev prodBlk (c : Dev nD) (t : Fin cfg0.N) : Vec Ideal S10000x64 .f32 := matProd (M := 10000) (K := 200) (N := 64) (xblk m c t) (wblk m c t)

theorem xarr_eq (c : Dev nD) : xarr m c = m ((c : Thread nD τ).loc main_arg0) := V_main_arg0 m c
theorem warr_eq (c : Dev nD) : warr m c = Cert.Weights.weights (F := Ideal) lit0 (m ((c : Thread nD τ).loc main_arg1)) := V_weights m c

/-- The printed index maps over the fifty points: the data block and the result block move together down the rows, one block
    per point; the weight block never moves; no block is offset along the columns. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val)

/-- The block lemma at point t's staging buffers and input blocks: the block the body leaves there is the product of the
    point's two blocks. -/
theorem blk_eq (c : Dev nD) (t : Fin cfg0.N) :
    out0_A_2 c (grid0.coords t) (ms0_0 t) (hs0_0 t) (ms0_1 t) (hs0_1 t) (ms0_2 t) (hs0_2 t) (xblk m c t) (wblk m c t) = prodBlk m c t :=
  Cert.KernelIdeal.BlockValue.block_eq c (grid0.coords t) (ms0_0 t) (hs0_0 t) (ms0_1 t) (hs0_1 t) (ms0_2 t) (hs0_2 t) (xblk m c t) (wblk m c t)

/-- Row a of point t's data block is row 10000 · (block index) + a of the data matrix. -/
theorem xblk_at (c : Dev nD) (t : Fin cfg0.N) (a : Fin 10000) (k : Fin 200) (r : Fin 500000)
    (h : r.val = win0_2.index t (0 : Fin 2) * 10000 + a.val) : xblk m c t (ix2 a k) = xarr m c (ix2 r k) := by
  obtain ⟨e0, e1, e2, e3, e4, e5⟩ := idx_facts t
  show xarr m c (((cfg0.win 0).blk t).view.emb (ix2 a k)) = xarr m c (ix2 r k)
  refine congrArg (xarr m c) (funext fun d => Fin.ext ?_)
  match d with
  | ⟨0, _⟩ =>
    show win0_0.index t (0 : Fin 2) * 10000 + 1 * a.val = r.val
    omega
  | ⟨1, _⟩ =>
    show win0_0.index t (1 : Fin 2) * 200 + 1 * k.val = k.val
    omega

/-- Every point's weight block is the whole weight matrix. -/
theorem wblk_at (c : Dev nD) (t : Fin cfg0.N) (k : Fin 200) (q : Fin 64) : wblk m c t (ix2 k q) = warr m c (ix2 k q) := by
  obtain ⟨e0, e1, e2, e3, e4, e5⟩ := idx_facts t
  show warr m c (((cfg0.win 1).blk t).view.emb (ix2 k q)) = warr m c (ix2 k q)
  refine congrArg (warr m c) (funext fun d => Fin.ext ?_)
  match d with
  | ⟨0, _⟩ =>
    show win0_1.index t (0 : Fin 2) * 200 + 1 * k.val = k.val
    omega
  | ⟨1, _⟩ =>
    show win0_1.index t (1 : Fin 2) * 64 + 1 * q.val = q.val
    omega

/-- Entry (a, q) of point t's block product is entry (r, q) of the array product, r the block row's place in the array. -/
theorem blk_prod_at (c : Dev nD) (t : Fin cfg0.N) (a : Fin 10000) (q : Fin 64) (r : Fin 500000)
    (h : r.val = win0_2.index t (0 : Fin 2) * 10000 + a.val) : prodBlk m c t (ix2 a q) = prodArr m c (ix2 r q) := by
  show ∑ k : Fin 200, xblk m c t (ix2 a k) * wblk m c t (ix2 k q) = ∑ k : Fin 200, xarr m c (ix2 r k) * warr m c (ix2 k q)
  refine Finset.sum_congr rfl fun k _ => ?_
  rw [xblk_at m c t a k r h, wblk_at m c t k q]

/-- The same over whole indices: j in the block, i its place in the array. -/
theorem blk_prod_idx (c : Dev nD) (t : Fin cfg0.N) (j : S10000x64.Idx) (i : S500000x64.Idx)
    (h0 : (i 0).val = win0_2.index t (0 : Fin 2) * 10000 + (j 0).val) (h1 : (i 1).val = (j 1).val) :
    prodBlk m c t j = prodArr m c i := by
  obtain ⟨a, q, rfl⟩ : ∃ (a : Fin 10000) (q : Fin 64), j = ix2 a q := ⟨j 0, j 1, eq_ix2 j⟩
  obtain ⟨r, q', rfl⟩ : ∃ (r : Fin 500000) (q' : Fin 64), i = ix2 r q' := ⟨i 0, i 1, eq_ix2 i⟩
  have hq : q' = q := Fin.ext h1
  subst hq
  exact blk_prod_at m c t a q' r h0

/-- What point t writes back is block t of the product of the two arrays. -/
theorem flushed_eq (c : Dev nD) (t : Fin cfg0.N) :
    (dats m 0 c).flushed 2 t = ((cfg0.win 2).blk t).view.read (Elt Ideal) (prodArr m c) := by
  rw [Cert.KernelIdeal.Value.flushed2_A]
  show (cfg0.win 2).cut (grid0.coords t) (out0_A_2 c (grid0.coords t) (ms0_0 t) (hs0_0 t) (ms0_1 t) (hs0_1 t) (ms0_2 t) (hs0_2 t) (xblk m c t) (wblk m c t)) = _
  rw [blk_eq]
  obtain ⟨e0, e1, e2, e3, e4, e5⟩ := idx_facts t
  funext j
  show prodBlk m c t j = prodArr m c (((cfg0.win 2).blk t).view.emb j)
  refine blk_prod_idx m c t j (((cfg0.win 2).blk t).view.emb j) ?_ ?_
  · show win0_2.index t (0 : Fin 2) * 10000 + 1 * (j 0).val = win0_2.index t (0 : Fin 2) * 10000 + (j 0).val
    omega
  · show win0_2.index t (1 : Fin 2) * 64 + 1 * (j 1).val = (j 1).val
    omega

/-- An index of the result array is in point t's block iff each coordinate is in the block's range on its axis. -/
theorem mem_blk (t : Fin cfg0.N) (i : S500000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v20).slice (win0_2.rect t)).set ↔ _
  rw [View.set_slice_whole, Rect.mem_set_unit]
  exact Iff.rfl

/-- Row r of the result is in the block of point r / 10000. -/
theorem cover (i : S500000x64.Idx) : ∃ t : Fin cfg0.N, (cfg0.win 2).flush t = true ∧ i ∈ ((cfg0.win 2).blk t).view.set := by
  have hi0 : (i 0).val < 500000 := (i 0).isLt
  have hi1 : (i 1).val < 64 := (i 1).isLt
  have hN : (i 0).val / 10000 < cfg0.N := by
    show _ < grid0.N
    rw [N_0]; omega
  obtain ⟨e0, e1, e2, e3, e4, e5⟩ := idx_facts ⟨(i 0).val / 10000, hN⟩
  refine ⟨⟨(i 0).val / 10000, hN⟩, flush0_2 _, ?_⟩
  rw [mem_blk]
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    rw [e5]
    show (i 0).val / 10000 * 10000 ≤ (i 0).val ∧ (i 0).val < (i 0).val / 10000 * 10000 + 10000
    omega
  | ⟨1, _⟩ =>
    show win0_2.index ⟨(i 0).val / 10000, hN⟩ (1 : Fin 2) * 64 ≤ (i 1).val
      ∧ (i 1).val < win0_2.index ⟨(i 0).val / 10000, hN⟩ (1 : Fin 2) * 64 + 64
    omega

/-- The result array after the run: the product of the two arrays the region read. -/
theorem final (c : Dev nD) : (dats m 0 c).arrAt 2 cfg0.N = prodArr m c :=
  (dats m 0 c).arrAt_eq_of_cover 2 _ (fun t _ => flushed_eq m c t) cover

/-- The product of the arrays the region read is the product of the launched data matrix with the weight function of the
    launched parameter vector. -/
theorem prodArr_eq (c : Dev nD) :
    prodArr m c = matProd (M := 500000) (K := 200) (N := 64) (m ((c : Thread nD τ).loc main_arg0))
      (Cert.Weights.weights (F := Ideal) lit0 (m ((c : Thread nD τ).loc main_arg1))) := by
  show matProd (M := 500000) (K := 200) (N := 64) (xarr m c) (warr m c) = _
  rw [xarr_eq, warr_eq]

/-- The kernel's run: the result buffer ends at that product, both arguments as launched. -/
theorem run : θ_run defs (onTc (τ := τ) (main (F := Ideal))) ⟨m, fun _ => 0, ρ⟩ fun r => ∀ c : Dev nD,
      r.2.mem ((c : Thread nD τ).loc main_v20)
        = matProd (M := 500000) (K := 200) (N := 64) (m ((c : Thread nD τ).loc main_arg0))
            (Cert.Weights.weights (F := Ideal) lit0 (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (prodArr_eq m c)), (h c).2.1, (h c).2.2⟩)
    (Cert.KernelIdeal.Value.run_blocks m ρ)

end Cert.KernelIdeal.ArrayValue

end
-- ==== Proof.RefRun.lean ====
/-
  The reference's run. Its @main is a straight line of 29 host operations (the three of the clipping
  helper inlined where it is called): the band constants and the parameter vector are combined into the
  normalised weight matrix (27 operations, together the function `Cert.Weights.weights`), and the result is
  the product of the data matrix with it, contracting the 200 bands. Every weakly fair execution terminates
  with the result buffer at that product and the two arguments unchanged.
-/
import proofs.«421638_j21457656611281_3_alg».proof.Proof.Gen.ReferenceIdeal
import proofs.«421638_j21457656611281_3_alg».proof.Proof.Weights
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the helper's three at its call. -/
abbrev ops : List (HloOp τ sig (Elt F)) :=
  [ nullary main_cst (fun i => FloatOps.ofBits .f32 (lit0 (S200.rowMajor i))),
    unary main_arg1 main_v0 (broadcastInDim S64x1 ![0] bcast_S64_S64x1_0 : (⟨S64, .f32⟩ : BufTy).Contents (Elt F) → (⟨S64x1, .f32⟩ : BufTy).Contents (Elt F)),
    unary main_cst main_v1 (broadcastInDim S1x200 ![1] bcast_S200_S1x200_1 : (⟨S200, .f32⟩ : BufTy).Contents (Elt F) → (⟨S1x200, .f32⟩ : BufTy).Contents (Elt F)),
    nullary main_cst_0 (constant S_ .f32 0x358637BD#32),
    unary main_cst_0 main_v2 (broadcastInDim S1x200 ![] bcast_S_S1x200 : (⟨S_, .f32⟩ : BufTy).Contents (Elt F) → (⟨S1x200, .f32⟩ : BufTy).Contents (Elt F)),
    binary main_v1 main_v2 main_v3 (mulf : (⟨S1x200, .f32⟩ : BufTy).Contents (Elt F) → (⟨S1x200, .f32⟩ : BufTy).Contents (Elt F) → (⟨S1x200, .f32⟩ : BufTy).Contents (Elt F)),
    unary main_v0 main_v4 (broadcastInDim S64x200 ![0, 1] bcast_S64x1_S64x200_0_1 : (⟨S64x1, .f32⟩ : BufTy).Contents (Elt F) → (⟨S64x200, .f32⟩ : BufTy).Contents (Elt F)),
    unary main_v3 main_v5 (broadcastInDim S64x200 ![0, 1] bcast_S1x200_S64x200_0_1 : (⟨S1x200, .f32⟩ : BufTy).Contents (Elt F) → (⟨S64x200, .f32⟩ : BufTy).Contents (Elt F)),
    binary main_v4 main_v5 main_v6 (mulf : (⟨S64x200, .f32⟩ : BufTy).Contents (Elt F) → (⟨S64x200, .f32⟩ : BufTy).Contents (Elt F) → (⟨S64x200, .f32⟩ : BufTy).Contents (Elt F)),
    nullary main_cst_1 (constant S_ .f32 0xBD80ADFD#32),
    unary main_cst_1 main_v7 (broadcastInDim S64x200 ![] bcast_S_S64x200 : (⟨S_, .f32⟩ : BufTy).Contents (Elt F) → (⟨S64x200, .f32⟩ : BufTy).Contents (Elt F)),
    binary main_v7 main_v6 main_v8 (Host.divf : (⟨S64x200, .f32⟩ : BufTy).Contents (Elt F) → (⟨S64x200, .f32⟩ : BufTy).Contents (Elt F) → (⟨S64x200, .f32⟩ : BufTy).Contents (Elt F)),
    unary main_v8 main_v9 (Host.cos : (⟨S64x200, .f32⟩ : BufTy).Contents (Elt F) → (⟨S64x200, .f32⟩ : BufTy).Contents (Elt F)),
    nullary main_cst_2 (constant S_ .f32 0x3F000000#32),
    unary main_cst_2 main_v10 (broadcastInDim S64x200 ![] bcast_S_S64x200 : (⟨S_, .f32⟩ : BufTy).Contents (Elt F) → (⟨S64x200, .f32⟩ : BufTy).Contents (Elt F)),
    binary main_v10 main_v9 main_v11 (mulf : (⟨S64x200, .f32⟩ : BufTy).Contents (Elt F) → (⟨S64x200, .f32⟩ : BufTy).Contents (Elt F) → (⟨S64x200, .f32⟩ : BufTy).Contents (Elt F)),
    nullary main_cst_3 (constant S_ .f32 0x3F000000#32),
    unary main_cst_3 main_v12 (broadcastInDim S64x200 ![] bcast_S_S64x200 : (⟨S_, .f32⟩ : BufTy).Contents (Elt F) → (⟨S64x200, .f32⟩ : BufTy).Contents (Elt F)),
    binary main_v12 main_v11 main_v13 (subf : (⟨S64x200, .f32⟩ : BufTy).Contents (Elt F) → (⟨S64x200, .f32⟩ : BufTy).Contents (Elt F) → (⟨S64x200, .f32⟩ : BufTy).Contents (Elt F)),
    unary main_v13 main_v14 ((transpose S200x64 [1, 0] · transposes_S64x200_S200x64_1_0) : (⟨S64x200, .f32⟩ : BufTy).Contents (Elt F) → (⟨S200x64, .f32⟩ : BufTy).Contents (Elt F)),
    TRef.nullary (.of main_call0_cst : TRef sig ⟨S_, .f32⟩) (constant S_ .f32 0x00000000#32),
    TRef.unary (.of main_call0_cst : TRef sig ⟨S_, .f32⟩) (.of main_call0_v0 : TRef sig ⟨S200x64, .f32⟩) (broadcastInDim S200x64 ![] bcast_S_S200x64),
    TRef.binary (.of main_v14 : TRef sig ⟨S200x64, .f32⟩) (.of main_call0_v0 : TRef sig ⟨S200x64, .f32⟩) (.of main_v15 : TRef sig ⟨S200x64, .f32⟩) maximumf,
    nullary main_cst_4 (constant S_ .f32 0x00000000#32),
    binary main_v14 main_cst_4 main_v16 ((fun x v => Host.reduceAdd x v reducesTo_S200x64_S64_d0 h_S_) : (⟨S200x64, .f32⟩ : BufTy).Contents (Elt F) → (⟨S_, .f32⟩ : BufTy).Contents (Elt F) → (⟨S64, .f32⟩ : BufTy).Contents (Elt F)),
    unary main_v16 main_v17 (broadcastInDim S1x64 ![1] bcast_S64_S1x64_1 : (⟨S64, .f32⟩ : BufTy).Contents (Elt F) → (⟨S1x64, .f32⟩ : BufTy).Contents (Elt F)),
    unary main_v17 main_v18 (broadcastInDim S200x64 ![0, 1] bcast_S1x64_S200x64_0_1 : (⟨S1x64, .f32⟩ : BufTy).Contents (Elt F) → (⟨S200x64, .f32⟩ : BufTy).Contents (Elt F)),
    binary main_v15 main_v18 main_v19 (Host.divf : (⟨S200x64, .f32⟩ : BufTy).Contents (Elt F) → (⟨S200x64, .f32⟩ : BufTy).Contents (Elt F) → (⟨S200x64, .f32⟩ : BufTy).Contents (Elt F)),
    binary main_arg0 main_v19 main_v20 ((fun l r => Host.dotGeneral dot_S500000x200_S200x64_S500000x64_1_0_0_1_n_n none l r) : (⟨S500000x200, .f32⟩ : BufTy).Contents (Elt F) → (⟨S200x64, .f32⟩ : BufTy).Contents (Elt F) → (⟨S500000x64, .f32⟩ : BufTy).Contents (Elt F)) ]

set_option maxRecDepth 1024 in
/-- @main is that straight line: the helper's definition unfolded at its call, sequencing reassociated. -/
theorem main_eq (c : Dev nD) : main (F := F) c = seq ops := by
  simp only [main, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., nullary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., binary_bufs_sub .., unary_bufs_sub .., unary_bufs_sub .., binary_bufs_sub .., binary_bufs_sub ..⟩

/-- The run: the result is the data matrix times the weight matrix of the parameter vector (the weight chain kept
    as one function), and both arguments end as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20)
        = Host.dotGeneral dot_S500000x200_S200x64_S500000x64_1_0_0_1_n_n none (m ((c.tc : Thread nD τ).loc main_arg0))
            (Cert.Weights.weights (F := F) lit0 (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v20).trans (by after_results; rfl),
      (h c main_arg0).trans (by after_results),
      (h c main_arg1).trans (by after_results)⟩)
    (run_seq scopedRefs_eq scopedSems_eq defs main (fun _ => ops) main_eq (fun _ => ops_sub) m ρ)

end Cert.ReferenceIdeal.RefRun

end
-- ==== Proof.lean ====
/-
  The filter layer: both programs first build, on the host and by the same operations on the same constants, the
  [200, 64] matrix of normalised, clipped cosine weights from the 64 parameters (Proof/Weights.lean keeps that chain as
  one function), then multiply the [500000, 200] data matrix by it. The reference does the product as one host dot
  contracting the 200 bands. The kernel walks fifty row blocks of 10000 rows; inside a block, five chunks of 2000 rows
  are narrowed to bf16, multiplied by the narrowed weights on the matrix unit into a zero accumulator and stored at
  their rows. At the ideal values a change of format is the identity and the zero accumulator adds nothing, so each
  chunk is its rows of the product (Proof/BlockValue.lean), the chunks tile the block and the blocks tile the array
  (Proof/ArrayValue.lean): entry (r, o) of either result is ∑_c x[r, c] · weights[c, o], one sum over the same index
  set on the extended reals, with no law beyond reading both products at an index (Proof/LibPlainDot.lean). No
  finiteness of the inputs is used. The reference's termination and its result are its run read back
  (Proof/RefRun.lean); the two kernels' frames are the generated ones; the idealization rewrote nothing.
-/
import proofs.«421638_j21457656611281_3_alg».proof.Defs
import proofs.«421638_j21457656611281_3_alg».proof.Proof.Gen.Kernel
import proofs.«421638_j21457656611281_3_alg».proof.Proof.Gen.Kernel.Frame
import proofs.«421638_j21457656611281_3_alg».proof.Proof.Gen.KernelIdeal
import proofs.«421638_j21457656611281_3_alg».proof.Proof.Gen.KernelIdeal.Frame
import proofs.«421638_j21457656611281_3_alg».proof.Proof.Gen.ReferenceIdeal
import proofs.«421638_j21457656611281_3_alg».proof.Proof.Gen.Pre_finite_inputs
import proofs.«421638_j21457656611281_3_alg».proof.Proof.ArrayValue
import proofs.«421638_j21457656611281_3_alg».proof.Proof.RefRun
import Idealize.ShloMosaic.Adequacy
import Idealize.ShloMosaic.Init

noncomputable section

namespace Cert.Proof

open Idealize.ShloMosaic Idealize.ShloMosaic.TcCoe Idealize.SL.Sem

/-- The two programs carry the same table of the 200 band constants, word for word. -/
theorem lit_eq : Cert.ReferenceIdeal.lit0 = Cert.KernelIdeal.lit0 := by
  funext i
  revert i
  decide +kernel

theorem frame_k : Cert.frame_Kernel := fun m ρ _ => Cert.Kernel.Gen.frame m ρ

theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both results are the product of the data matrix with the weight function of the parameter vector: the kernel's block
    by block, the reference's as one dot, read at an index as the same sum over the 200 bands. -/
theorem algebraic : Cert.algebraic_KernelIdeal_ReferenceIdeal := by
  intro m ρ m' ρ' _ hagree
  refine ⟨fun c => Cert.LibPlainDot.matProd (M := 500000) (K := 200) (N := 64)
      (m ((c.tc : Thread Cert.KernelIdeal.nD Cert.KernelIdeal.τ).loc Cert.KernelIdeal.main_arg0))
      (Cert.Weights.weights (F := Ideal) Cert.KernelIdeal.lit0 (m ((c.tc : Thread Cert.KernelIdeal.nD Cert.KernelIdeal.τ).loc Cert.KernelIdeal.main_arg1))),
    Cert.KernelIdeal.ArrayValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2, lit_eq]
  simp only [Host.dotGeneral]
  exact Cert.LibPlainDot.dotGeneral_eq_matProd _ rfl rfl rfl rfl rfl rfl _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
